-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 107
  | .vmem => 13
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S850000x1, .f32⟩
  | .hbm, ⟨42, _⟩ => ⟨S50000x128, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x128, .f32⟩
  | .hbm, ⟨53, _⟩ => ⟨S850000x128, .f32⟩
  | .hbm, ⟨54, _⟩ => ⟨S_, .f32⟩
  | .hbm, ⟨55, _⟩ => ⟨S50000x128, .f32⟩
  | .hbm, ⟨56, _⟩ => ⟨S850000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S_, .f32⟩
  | .hbm, ⟨63, _⟩ => ⟨S50000x128, .f32⟩
  | .hbm, ⟨64, _⟩ => ⟨S50000x128, .i1⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S50000x64, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x64, .f32⟩
  | .hbm, ⟨98, _⟩ => ⟨S850000x64, .f32⟩
  | .hbm, ⟨99, _⟩ => ⟨S850000x64, .f32⟩
  | .hbm, ⟨100, _⟩ => ⟨S_, .f32⟩
  | .hbm, ⟨101, _⟩ => ⟨S50000x64, .f32⟩
  | .hbm, ⟨102, _⟩ => ⟨S850000x1, .i32⟩
  | .hbm, ⟨103, _⟩ => ⟨S50000x64, .f32⟩
  | .hbm, ⟨104, _⟩ => ⟨S1x64, .f32⟩
  | .hbm, ⟨105, _⟩ => ⟨S50000x64, .f32⟩
  | .hbm, ⟨106, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v44 : Ref sig .tc := ⟨.hbm, 68, rfl⟩
abbrev main_v45_0 : Ref sig .tc := ⟨.hbm, 69, rfl⟩
abbrev main_v45_1 : Ref sig .tc := ⟨.hbm, 70, rfl⟩
abbrev main_c_8 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v45_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 147
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S50000, .f32⟩
  | 22 => ⟨S50000x128, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S850000x1, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000x128, .f32⟩
  | 52 => ⟨S850000x128, .f32⟩
  | 53 => ⟨S850000x128, .f32⟩
  | 54 => ⟨S_, .f32⟩
  | 55 => ⟨S50000x128, .f32⟩
  | 56 => ⟨S850000x1, .i32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S_, .f32⟩
  | 63 => ⟨S50000x128, .f32⟩
  | 64 => ⟨S50000x128, .i1⟩
  | 65 => ⟨S_, .f32⟩
  | 66 => ⟨S50000x128, .f32⟩
  | 67 => ⟨S50000x128, .f32⟩
  | 68 => ⟨S50000x128, .f32⟩
  | 69 => ⟨S50000x64, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000, .f32⟩
  | 88 => ⟨S850000, .f32⟩
  | 89 => ⟨S850000x1, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x64, .f32⟩
  | 99 => ⟨S850000x64, .f32⟩
  | 100 => ⟨S850000x64, .f32⟩
  | 101 => ⟨S_, .f32⟩
  | 102 => ⟨S50000x64, .f32⟩
  | 103 => ⟨S850000x1, .i32⟩
  | 104 => ⟨S50000x64, .f32⟩
  | 105 => ⟨S1x64, .f32⟩
  | 106 => ⟨S50000x64, .f32⟩
  | 107 => ⟨S50000x64, .f32⟩
  | 108 => ⟨S50000x64, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000, .f32⟩
  | 127 => ⟨S850000, .f32⟩
  | _ => ⟨S50000x256, .f32⟩

abbrev hbmTy0_1 (i : Nat) : BufTy := match i % 128 with
  | 0 => ⟨S850000x1, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S850000x64, .f32⟩
  | 10 => ⟨S850000x64, .f32⟩
  | 11 => ⟨S850000x64, .f32⟩
  | 12 => ⟨S_, .f32⟩
  | 13 => ⟨S50000x64, .f32⟩
  | 14 => ⟨S850000x1, .i32⟩
  | 15 => ⟨S50000x64, .f32⟩
  | 16 => ⟨S1x64, .f32⟩
  | 17 => ⟨S50000x64, .f32⟩
  | 18 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_15 : Ref sig .tc := ⟨.hbm, 109, rfl⟩
abbrev main_v78 : Ref sig .tc := ⟨.hbm, 110, rfl⟩
abbrev main_v79 : Ref sig .tc := ⟨.hbm, 111, rfl⟩
abbrev main_c_16 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_17 : Ref sig .tc := ⟨.hbm, 118, rfl⟩
abbrev main_v85 : Ref sig .tc := ⟨.hbm, 119, rfl⟩
abbrev main_v86 : Ref sig .tc := ⟨.hbm, 120, rfl⟩
abbrev main_c_18 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_19 : Ref sig .tc := ⟨.hbm, 129, rfl⟩
abbrev main_v94 : Ref sig .tc := ⟨.hbm, 130, rfl⟩
abbrev main_v95 : Ref sig .tc := ⟨.hbm, 131, rfl⟩
abbrev main_c_20 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_21 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S50000x256_S256x128_S50000x128_1_0_0_1_n_n_wf : DotDims.WF S50000x256 S256x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  Two rounds of normalised neighbourhood averaging on a graph of 50000 nodes, as one function of the inputs.

  The edge list `e` (2 × 800000 node numbers) is extended by one self loop per node: `srcIdx e` and `dstIdx e`
  are the 850000 message sources and targets. A node's degree is the number of messages it receives,
  `degInvSqrt` its inverse square root, and the weight of message `k` is the product of that quantity at its
  two ends (`edgeNorm`, kept as a column). One round takes per-node feature rows `h`, reads the source's row
  for every message, scales it by the message's weight, sums the messages arriving at each node and adds a
  bias row (`agg128` for 128 features, `agg64` for 64). Node numbers below zero count from the end (`wrapIdx`).
  Between the rounds a leaky rectifier is applied (`leaky`: `h` where `h ≥ 0`, `slope · h` elsewhere).
  The rows fed to a round are a matrix product of the previous features with a weight matrix (`dot128`,
  `dot64`). `hidden` is the first round's result and `outOf` a second round's: both programs compute
  `outOf x e W1 b1 W b` twice, at two weight matrices and biases.
-/
import proofs.«124347_j62904091018060_1_alg».proof.ReferenceIdeal
import proofs.«124347_j62904091018060_1_alg».proof.Proof.Gen.ReferenceIdeal

noncomputable section

namespace Cert.Gcn

open Idealize.ShloMosaic Cert.ReferenceIdeal Cert.ReferenceIdeal.Facts₀

/-- The contents of an array of shape `s` and element type `e`. -/
abbrev Arr (F : FTy → Type) (s : Shape) (e : EltTy) : Type := (⟨s, e⟩ : BufTy).Contents (Elt F)

variable {F : FTy → Type} [FloatOps F]

/-- Row 0 of the edge list, then every node's own number: the source of each message. -/
def srcIdx (e : Arr F S2x800000 .i32) : Arr F S850000 .i32 :=
  concatenate S850000 0
    [⟨S800000, fun i => shapeCast S800000 (extractStridedSlice S1x800000 ![0, 0] e slices_S2x800000_S1x800000_0_0) shapeCasts_S1x800000_S800000 i⟩,
     ⟨S50000, iotaInDim S50000 32 0⟩] concatenates_S800000_S50000_S850000_d0

/-- Row 1 of the edge list, then every node's own number: the target of each message. -/
def dstIdx (e : Arr F S2x800000 .i32) : Arr F S850000 .i32 :=
  concatenate S850000 0
    [⟨S800000, fun i => shapeCast S800000 (extractStridedSlice S1x800000 ![1, 0] e slices_S2x800000_S1x800000_1_0) shapeCasts_S1x800000_S800000 i⟩,
     ⟨S50000, iotaInDim S50000 32 0⟩] concatenates_S800000_S50000_S850000_d0

/-- The inverse square root of each node's degree: ones summed into the node each message arrives at. -/
def degInvSqrt (dst : Arr F S850000 .i32) : Arr F S50000 .f32 :=
  Host.rsqrt (Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32)))

/-- A node number below zero counts from the end: 50000 is added to it. -/
def wrapIdx (i : Arr F S850000 .i32) : Arr F S850000 .i32 :=
  select (cmpi .slt i (broadcastInDim S850000 ![] bcast_S_S850000 (constantI S_ 32 0#32)))
    (addi i (broadcastInDim S850000 ![] bcast_S_S850000 (constantI S_ 32 50000#32))) i

/-- The weight of each message, as a column: the product of `dis` at its source and at its target. -/
def edgeNorm (dis : Arr F S50000 .f32) (src dst : Arr F S850000 .i32) : Arr F S850000x1 .f32 :=
  broadcastInDim S850000x1 ![0] bcast_S850000_S850000x1_0
    (mulf
      (Host.gather gather_S50000_S850000x1_S850000_n_0_n_n_0_1_1 dis (broadcastInDim S850000x1 ![0] bcast_S850000_S850000x1_0 (wrapIdx src)))
      (Host.gather gather_S50000_S850000x1_S850000_n_0_n_n_0_1_1 dis (broadcastInDim S850000x1 ![0] bcast_S850000_S850000x1_0 (wrapIdx dst))))

/-- One round over 128 features: the source's row of `h` for every message, times the message's weight, summed
    into the message's target, plus the bias row. -/
def agg128 (h : Arr F S50000x128 .f32) (nrm : Arr F S850000x1 .f32) (src dst : Arr F S850000 .i32) (b : Arr F S128 .f32) :
    Arr F S50000x128 .f32 :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 dst)
      (mulf
        (Host.gather gather_S50000x128_S850000x1_S850000x128_1_0_n_n_0_1_1128 h (broadcastInDim S850000x1 ![0] bcast_S850000_S850000x1_0 (wrapIdx src)))
        (broadcastInDim S850000x128 ![0, 1] bcast_S850000x1_S850000x128_0_1 nrm)))
    (broadcastInDim S50000x128 ![0, 1] bcast_S1x128_S50000x128_0_1 (broadcastInDim S1x128 ![1] bcast_S128_S1x128_1 b))

/-- The same round over 64 features. -/
def agg64 (h : Arr F S50000x64 .f32) (nrm : Arr F S850000x1 .f32) (src dst : Arr F S850000 .i32) (b : Arr F S64 .f32) :
    Arr F S50000x64 .f32 :=
  addf
    (Host.scatterAdd scatter_S50000x64_S850000x1_S850000x64_1_0_0_1
      (broadcastInDim S50000x64 ![] bcast_S_S50000x64 (constant S_ .f32 0x00000000#32))
      (broadcastInDim S850000x1 ![0] bcast_S850000_S850000x1_0 dst)
      (mulf
        (Host.gather gather_S50000x64_S850000x1_S850000x64_1_0_n_n_0_1_164 h (broadcastInDim S850000x1 ![0] bcast_S850000_S850000x1_0 (wrapIdx src)))
        (broadcastInDim S850000x64 ![0, 1] bcast_S850000x1_S850000x64_0_1 nrm)))
    (broadcastInDim S50000x64 ![0, 1] bcast_S1x64_S50000x64_0_1 (broadcastInDim S1x64 ![1] bcast_S64_S1x64_1 b))

/-- The rectifier's slope for negative entries, as a scalar. -/
def slope : Arr F S_ .f32 := constant S_ .f32 0x3C23D70A#32

/-- The leaky rectifier: `h` where it is at least zero, `s · h` elsewhere. -/
def leaky (h : Arr F S50000x128 .f32) (s : Arr F S_ .f32) : Arr F S50000x128 .f32 :=
  select
    (cmpf .oge h (broadcastInDim S50000x128 ![] bcast_S_S50000x128 (constant S_ .f32 0x00000000#32)))
    h
    (mulf (broadcastInDim S50000x128 ![] bcast_S_S50000x128 (id s)) h)

/-- Features times the first weight matrix: 256 inputs to 128. -/
def dot128 (x : Arr F S50000x256 .f32) (w : Arr F S256x128 .f32) : Arr F S50000x128 .f32 :=
  Host.dotGeneral dot_S50000x256_S256x128_S50000x128_1_0_0_1_n_n none x w

/-- Hidden features times a second weight matrix: 128 inputs to 64. -/
def dot64 (h : Arr F S50000x128 .f32) (w : Arr F S128x64 .f32) : Arr F S50000x64 .f32 :=
  Host.dotGeneral dot_S50000x128_S128x64_S50000x64_1_0_0_1_n_n none h w

/-- The message weights of the graph `e`. -/
def normOf (e : Arr F S2x800000 .i32) : Arr F S850000x1 .f32 :=
  edgeNorm (degInvSqrt (dstIdx e)) (srcIdx e) (dstIdx e)

/-- The first round and the rectifier. -/
def hidden (x : Arr F S50000x256 .f32) (e : Arr F S2x800000 .i32) (W1 : Arr F S256x128 .f32) (b1 : Arr F S128 .f32) :
    Arr F S50000x128 .f32 :=
  leaky (agg128 (dot128 x W1) (normOf e) (srcIdx e) (dstIdx e) b1) slope

/-- A second round on the hidden features: what both programs return, once per weight matrix and bias. -/
def outOf (x : Arr F S50000x256 .f32) (e : Arr F S2x800000 .i32) (W1 : Arr F S256x128 .f32) (b1 : Arr F S128 .f32)
    (W : Arr F S128x64 .f32) (b : Arr F S64 .f32) : Arr F S50000x64 .f32 :=
  agg64 (dot64 (hidden x e W1 b1) W) (normOf e) (srcIdx e) (dstIdx e) b

end Cert.Gcn

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.RegionValue.lean ====
/-
  What each of the two grids leaves in its output arrays, at the ideal values: the whole matrix product of the
  arrays it read. Each grid point multiplies 5000 rows of the left operand by the whole right operand, and the ten
  row blocks tile the 50000 rows; entry (r, q) of a block's product is the sum over k of left (r, k) · right (k, q),
  which is entry (r, q) of the whole product because a row of the product depends on that row of the left operand only.

  The steps, per output: the block product and the whole product read at an index as sums over the contraction
  coordinate; an input block's entry as an entry of its array (block index times block size plus the coordinate inside
  the block); the block indices as decided over the ten points (the left operand's row block is the output's, the
  weights' block is the whole matrix); so what a point writes back is its block of the whole product; and every row r
  lies in the block of the point whose block index is r / 5000.
-/
import proofs.«124347_j62904091018060_1_alg».proof.Proof.Gen.KernelIdeal.Frame
import proofs.«124347_j62904091018060_1_alg».proof.Proof.Spec
import proofs.«124347_j62904091018060_1_alg».proof.Proof.LibPlainDot
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

/-- The zero offsets of a load or store of a whole block. -/
theorem zero_offsets : (![0, 0] : Fin 2 → Nat) = fun _ => 0 := funext fun a => by fin_cases a <;> rfl

/-! ## The first grid -/

/-- The block product at the ideal values, read at an index: the sum over the 256 contraction coordinates (the
    truncations of the operands are the identity there, and the accumulator is zero). -/
theorem blockProduct0_apply (x0 : Vec Ideal S5000x256 .f32) (x1 : Vec Ideal S256x128 .f32) (y : S5000x128.Idx) :
    k0_pay1 x0 x1 y = ∑ k : Fin 256, x0 (ix2 (y 0) k) * x1 (ix2 k (y 1)) := by
  unfold k0_pay1
  exact PlainDot.matmul_zero_apply 5000 256 128 none _ _ y

/-- The whole product, read at an index: the same sum over the whole arrays. -/
theorem dot128_apply (x : Cert.Gcn.Arr Ideal S50000x256 .f32) (w : Cert.Gcn.Arr Ideal S256x128 .f32) (j : S50000x128.Idx) :
    Cert.Gcn.dot128 (F := Ideal) x w j = ∑ k : Fin 256, x (ix2 (j 0) k) * w (ix2 k (j 1)) := by
  unfold Cert.Gcn.dot128
  simp only [Host.dotGeneral]
  rw [Ideal.dotGeneral_apply]
  exact PlainDot.sum_contr 50000 256 128 x w j

/-- The block indices, decided over the ten points: the left operand's row block is the output's, and every other
    block index is zero. -/
theorem blockIndex0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- The left operand's block at point t holds the rows of the array from its block index times 5000 on. -/
theorem leftBlock0_apply (c : Dev nD) (t : Fin cfg0.N) (p : Fin 5000) (k : Fin 256) (r : Fin 50000)
    (hr : r.val = win0_0.index t (0 : Fin 2) * 5000 + p.val) (h1 : win0_0.index t (1 : Fin 2) = 0) :
    (iblk0 V c 0 t : Vec Ideal S5000x256 .f32) (ix2 p k) = (V c main_arg0 : S50000x256.Idx → Elt Ideal .f32) (ix2 r k) := by
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 256 + 1 * k.val = k.val; omega

/-- The weights' block at every point is the whole matrix. -/
theorem rightBlock0_apply (c : Dev nD) (t : Fin cfg0.N) (k : Fin 256) (q : Fin 128)
    (h0 : win0_1.index t (0 : Fin 2) = 0) (h1 : win0_1.index t (1 : Fin 2) = 0) :
    (iblk0 V c 1 t : Vec Ideal S256x128 .f32) (ix2 k q) = (V c main_arg2 : S256x128.Idx → Elt Ideal .f32) (ix2 k q) := by
  unfold iblk0
  rw [View.read_apply]
  show V c main_arg2 _ = V c main_arg2 _
  congr 1
  funext a
  apply Fin.ext
  match a with
  | ⟨0, _⟩ => show win0_1.index t (0 : Fin 2) * 256 + 1 * k.val = k.val; omega
  | ⟨1, _⟩ => show win0_1.index t (1 : Fin 2) * 128 + 1 * q.val = q.val; omega

/-- What point t writes back is its block of the whole product: entry (p, q) of the block product is the sum over k of
    the array's entry (block index · 5000 + p, k) times the weights' entry (k, q), the whole product's entry at that row. -/
theorem flushed0_eq (c : Dev nD) (t : Fin cfg0.N) :
    (dat0 V c).flushed 2 t = ((cfg0.win 2).blk t).view.read (Elt Ideal) (Cert.Gcn.dot128 (F := Ideal) (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x128) zero_offsets]
  obtain ⟨e0, e1, e2, e3, e4⟩ := blockIndex0 t
  funext j
  show k0_pay1 (iblk0 V c 0 t) (iblk0 V c 1 t) j = Cert.Gcn.dot128 (F := Ideal) (V c main_arg0) (V c main_arg2) (((cfg0.win 2).blk t).view.emb j)
  rw [blockProduct0_apply, dot128_apply]
  refine Finset.sum_congr rfl fun k _ => ?_
  have hr : ((((cfg0.win 2).blk t).view.emb j) 0).val = win0_0.index t (0 : Fin 2) * 5000 + (j 0).val := by
    rw [e0]; exact (win0_2.rect_emb_val t j 0)
  have hq : (((cfg0.win 2).blk t).view.emb j) 1 = j 1 := Fin.ext (by
    show ((win0_2.rect t).emb j 1 : Nat) = (j 1).val
    rw [win0_2.rect_emb_val t j 1, e4]; omega)
  rw [leftBlock0_apply V c t (j 0) k _ hr e1, rightBlock0_apply V c t k (j 1) e2 e3, hq]

/-- An index of the output array is in point t's block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Each of the ten row blocks is some point's. -/
theorem blockIndex0_onto : ∀ (q0 : Fin 10), ∃ t : Fin cfg0.N, win0_2.index t = ![q0.val, 0] :=
  (by decide +kernel : ∀ (q0 : Fin 10), ∃ t : Fin grid0.N, win0_2.index t = ![q0.val, 0])

/-- Row r of the output lies in the block of the point whose block index is r / 5000. -/
theorem rows_covered0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := blockIndex0_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The first grid's output array: the features times the first weight matrix. -/
theorem region0_out (c : Dev nD) :
    (dat0 V c).arrAt 2 cfg0.N = Cert.Gcn.dot128 (F := Ideal) (V c main_arg0) (V c main_arg2) :=
  (dat0 V c).arrAt_eq_of_cover 2 _ (fun t _ => flushed0_eq V c t) rows_covered0

/-! ## The second grid: the same, 128 contraction coordinates and 64 columns, once per weight matrix -/

/-- The whole product, read at an index. -/
theorem dot64_apply (x : Cert.Gcn.Arr Ideal S50000x128 .f32) (w : Cert.Gcn.Arr Ideal S128x64 .f32) (j : S50000x64.Idx) :
    Cert.Gcn.dot64 (F := Ideal) x w j = ∑ k : Fin 128, x (ix2 (j 0) k) * w (ix2 k (j 1)) := by
  unfold Cert.Gcn.dot64
  simp only [Host.dotGeneral]
  rw [Ideal.dotGeneral_apply]
  exact PlainDot.sum_contr 50000 128 64 x w j

/-- The left operand's block at point t holds the rows of the array from its block index times 5000 on. -/
theorem leftBlock1_apply (c : Dev nD) (t : Fin cfg1.N) (p : Fin 5000) (k : Fin 128) (r : Fin 50000)
    (hr : r.val = win1_0.index t (0 : Fin 2) * 5000 + p.val) (h1 : win1_0.index t (1 : Fin 2) = 0) :
    (iblk1 V c 0 t : Vec Ideal S5000x128 .f32) (ix2 p k) = (V c main_v44 : S50000x128.Idx → Elt Ideal .f32) (ix2 r k) := by
  unfold iblk1
  rw [View.read_apply]
  show V c main_v44 _ = V c main_v44 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-! ### Its first output -/

/-- The first block product at the ideal values, read at an index: the sum over the 128 contraction coordinates (the
    cast of the left block to its own shape and the truncations are the identity there, and the accumulator is zero). -/
theorem blockProduct1_3_apply (x0 : Vec Ideal S5000x128 .f32) (x1 : Vec Ideal S128x64 .f32) (y : S5000x64.Idx) :
    k1_pay2 x0 x1 y = ∑ k : Fin 128, x0 (ix2 (y 0) k) * x1 (ix2 k (y 1)) := by
  unfold k1_pay2 k1_pay1
  rw [shapeCast_self]
  exact PlainDot.matmul_zero_apply 5000 128 64 none _ _ y

/-- The first weights' block at every point is the whole matrix. -/
theorem rightBlock1_1_apply (c : Dev nD) (t : Fin cfg1.N) (k : Fin 128) (q : Fin 64)
    (h0 : win1_1.index t (0 : Fin 2) = 0) (h1 : win1_1.index t (1 : Fin 2) = 0) :
    (iblk1 V c 1 t : Vec Ideal S128x64 .f32) (ix2 k q) = (V c main_arg4 : S128x64.Idx → Elt Ideal .f32) (ix2 k q) := by
  unfold iblk1
  rw [View.read_apply]
  show V c main_arg4 _ = V c main_arg4 _
  congr 1
  funext a
  apply Fin.ext
  match a with
  | ⟨0, _⟩ => show win1_1.index t (0 : Fin 2) * 128 + 1 * k.val = k.val; omega
  | ⟨1, _⟩ => show win1_1.index t (1 : Fin 2) * 64 + 1 * q.val = q.val; omega

/-- The block indices, decided over the ten points: the left operand's row block is this output's, and every other
    block index is zero. -/
theorem blockIndex1_3 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_3.index t (1 : Fin 2) = 0 :=
  (by decide +kernel : ∀ t : Fin grid1.N, _)

/-- What point t writes back to this output is its block of the whole product. -/
theorem flushed1_3_eq (c : Dev nD) (t : Fin cfg1.N) :
    (dat1 V c).flushed 3 t = ((cfg1.win 3).blk t).view.read (Elt Ideal) (Cert.Gcn.dot64 (F := Ideal) (V c main_v44) (V c main_arg4)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S128x64) zero_offsets]
  obtain ⟨e0, e1, e2, e3, e4⟩ := blockIndex1_3 t
  funext j
  show k1_pay2 (iblk1 V c 0 t) (iblk1 V c 1 t) j = Cert.Gcn.dot64 (F := Ideal) (V c main_v44) (V c main_arg4) (((cfg1.win 3).blk t).view.emb j)
  rw [blockProduct1_3_apply, dot64_apply]
  refine Finset.sum_congr rfl fun k _ => ?_
  have hr : ((((cfg1.win 3).blk t).view.emb j) 0).val = win1_0.index t (0 : Fin 2) * 5000 + (j 0).val := by
    rw [e0]; exact (win1_3.rect_emb_val t j 0)
  have hq : (((cfg1.win 3).blk t).view.emb j) 1 = j 1 := Fin.ext (by
    show ((win1_3.rect t).emb j 1 : Nat) = (j 1).val
    rw [win1_3.rect_emb_val t j 1, e4]; omega)
  rw [leftBlock1_apply V c t (j 0) k _ hr e1, rightBlock1_1_apply V c t k (j 1) e2 e3, hq]

/-- An index of this output array is in point t's block iff each coordinate is in the block's range on its axis. -/
theorem mem_block1_3 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45_0).slice (win1_3.rect t)).set ↔ _
  rw [View.set_slice_whole, Rect.mem_set_unit]
  exact Iff.rfl

/-- Each of the ten row blocks is some point's. -/
theorem blockIndex1_3_onto : ∀ (q0 : Fin 10), ∃ t : Fin cfg1.N, win1_3.index t = ![q0.val, 0] :=
  (by decide +kernel : ∀ (q0 : Fin 10), ∃ t : Fin grid1.N, win1_3.index t = ![q0.val, 0])

/-- Row r of this output lies in the block of the point whose block index is r / 5000. -/
theorem rows_covered1_3 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := blockIndex1_3_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-! ### Its second output -/

/-- The second block product at the ideal values, read at an index: the sum over the 128 contraction coordinates (the
    cast of the left block to its own shape and the truncations are the identity there, and the accumulator is zero). -/
theorem blockProduct1_4_apply (x0 : Vec Ideal S5000x128 .f32) (x1 : Vec Ideal S128x64 .f32) (y : S5000x64.Idx) :
    k1_pay3 x0 x1 y = ∑ k : Fin 128, x0 (ix2 (y 0) k) * x1 (ix2 k (y 1)) := by
  unfold k1_pay3 k1_pay1
  rw [shapeCast_self]
  exact PlainDot.matmul_zero_apply 5000 128 64 none _ _ y

/-- The second weights' block at every point is the whole matrix. -/
theorem rightBlock1_2_apply (c : Dev nD) (t : Fin cfg1.N) (k : Fin 128) (q : Fin 64)
    (h0 : win1_2.index t (0 : Fin 2) = 0) (h1 : win1_2.index t (1 : Fin 2) = 0) :
    (iblk1 V c 2 t : Vec Ideal S128x64 .f32) (ix2 k q) = (V c main_arg6 : S128x64.Idx → Elt Ideal .f32) (ix2 k q) := by
  unfold iblk1
  rw [View.read_apply]
  show V c main_arg6 _ = V c main_arg6 _
  congr 1
  funext a
  apply Fin.ext
  match a with
  | ⟨0, _⟩ => show win1_2.index t (0 : Fin 2) * 128 + 1 * k.val = k.val; omega
  | ⟨1, _⟩ => show win1_2.index t (1 : Fin 2) * 64 + 1 * q.val = q.val; omega

/-- The block indices, decided over the ten points: the left operand's row block is this output's, and every other
    block index is zero. -/
theorem blockIndex1_4 : ∀ t : Fin cfg1.N,
    win1_0.index t (0 : Fin 2) = win1_4.index t (0 : Fin 2) ∧ win1_0.index t (1 : Fin 2) = 0
    ∧ win1_2.index t (0 : Fin 2) = 0 ∧ win1_2.index t (1 : Fin 2) = 0
    ∧ win1_4.index t (1 : Fin 2) = 0 :=
  (by decide +kernel : ∀ t : Fin grid1.N, _)

/-- What point t writes back to this output is its block of the whole product. -/
theorem flushed1_4_eq (c : Dev nD) (t : Fin cfg1.N) :
    (dat1 V c).flushed 4 t = ((cfg1.win 4).blk t).view.read (Elt Ideal) (Cert.Gcn.dot64 (F := Ideal) (V c main_v44) (V c main_arg6)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S128x64) zero_offsets]
  obtain ⟨e0, e1, e2, e3, e4⟩ := blockIndex1_4 t
  funext j
  show k1_pay3 (iblk1 V c 0 t) (iblk1 V c 2 t) j = Cert.Gcn.dot64 (F := Ideal) (V c main_v44) (V c main_arg6) (((cfg1.win 4).blk t).view.emb j)
  rw [blockProduct1_4_apply, dot64_apply]
  refine Finset.sum_congr rfl fun k _ => ?_
  have hr : ((((cfg1.win 4).blk t).view.emb j) 0).val = win1_0.index t (0 : Fin 2) * 5000 + (j 0).val := by
    rw [e0]; exact (win1_4.rect_emb_val t j 0)
  have hq : (((cfg1.win 4).blk t).view.emb j) 1 = j 1 := Fin.ext (by
    show ((win1_4.rect t).emb j 1 : Nat) = (j 1).val
    rw [win1_4.rect_emb_val t j 1, e4]; omega)
  rw [leftBlock1_apply V c t (j 0) k _ hr e1, rightBlock1_2_apply V c t k (j 1) e2 e3, hq]

/-- An index of this output array is in point t's block iff each coordinate is in the block's range on its axis. -/
theorem mem_block1_4 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v45_1).slice (win1_4.rect t)).set ↔ _
  rw [View.set_slice_whole, Rect.mem_set_unit]
  exact Iff.rfl

/-- Each of the ten row blocks is some point's. -/
theorem blockIndex1_4_onto : ∀ (q0 : Fin 10), ∃ t : Fin cfg1.N, win1_4.index t = ![q0.val, 0] :=
  (by decide +kernel : ∀ (q0 : Fin 10), ∃ t : Fin grid1.N, win1_4.index t = ![q0.val, 0])

/-- Row r of this output lies in the block of the point whose block index is r / 5000. -/
theorem rows_covered1_4 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := blockIndex1_4_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The second grid's first output array: the hidden features times its first weight matrix. -/
theorem region1_out3 (c : Dev nD) :
    (dat1 V c).arrAt 3 cfg1.N = Cert.Gcn.dot64 (F := Ideal) (V c main_v44) (V c main_arg4) :=
  (dat1 V c).arrAt_eq_of_cover 3 _ (fun t _ => flushed1_3_eq V c t) rows_covered1_3

/-- The second grid's second output array: the hidden features times its second weight matrix. -/
theorem region1_out4 (c : Dev nD) :
    (dat1 V c).arrAt 4 cfg1.N = Cert.Gcn.dot64 (F := Ideal) (V c main_v44) (V c main_arg6) :=
  (dat1 V c).arrAt_eq_of_cover 4 _ (fun t _ => flushed1_4_eq V c t) rows_covered1_4

end Cert.KernelIdeal.RegionValue

end
-- ==== Proof.KernelValue.lean ====
/-
  What the kernel program's run leaves in its two results, at the ideal values.

  The run's last boundary `W6` is a fold from the launch memory: a stretch of host operations (the edge list with
  self loops, the degrees, the message weights), the first grid, a stretch (the first round's gather, scaling, sums
  and bias, then the rectifier's seven operations), the second grid, and a last stretch (the second round, twice).
  Each stretch is read as a function of the buffers it is entered with, for ANY contents of them; each grid's output
  array is the whole matrix product of the arrays it read (Proof/RegionValue.lean); a buffer that a stretch or a grid
  does not write keeps what it held. Walking the fold back from a result to the launch memory composes these into
  `Cert.Gcn.outOf` of the arguments.
-/
import proofs.«124347_j62904091018060_1_alg».proof.Proof.Gen.KernelIdeal.Frame
import proofs.«124347_j62904091018060_1_alg».proof.Proof.Spec
import proofs.«124347_j62904091018060_1_alg».proof.Proof.RegionValue
import Idealize.ShloMosaic.Lib.StableHlo.Run

noncomputable section

namespace Cert.KernelIdeal.HostValue

open Idealize.ShloMosaic Idealize.ShloMosaic.TcCoe Idealize.SL.Sem Idealize.ShloMosaic.StableHlo
open Cert.KernelIdeal Cert.KernelIdeal.Gen

section Stretches

variable {F : FTy → Type} [FloatOps F]

/-- Operations run one list after another: the second list runs from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The first stretch: the messages' ends, then their weights -/

/-- The first seven operations: the two rows of the edge list, each followed by the nodes' own numbers. -/
abbrev endsOps : List (HloOp τ sig (Elt F)) := (hostOps0 (F := F)).take 7
/-- The other twenty-seven: degrees, their inverse square roots, and the weight of each message. -/
abbrev weightOps : List (HloOp τ sig (Elt F)) := (hostOps0 (F := F)).drop 7

theorem hostOps0_split : (hostOps0 : List (HloOp τ sig (Elt F))) = endsOps ++ weightOps :=
  (List.take_append_drop 7 _).symm

/-- The messages' sources are a function of the edge list alone. -/
theorem ends_src (V : Valuation τ sig (Elt F)) :
    after (endsOps (F := F)) V (Proc.devRef .tc main_v5) = Cert.Gcn.srcIdx (V (Proc.devRef .tc main_arg1)) := by
  simp only [endsOps, hostOps0, List.take_succ_cons, List.take_zero]
  after_results
  rfl

/-- So are their targets. -/
theorem ends_dst (V : Valuation τ sig (Elt F)) :
    after (endsOps (F := F)) V (Proc.devRef .tc main_v6) = Cert.Gcn.dstIdx (V (Proc.devRef .tc main_arg1)) := by
  simp only [endsOps, hostOps0, List.take_succ_cons, List.take_zero]
  after_results
  rfl

set_option maxRecDepth 8192 in
set_option maxHeartbeats 4000000 in
/-- The weights: the inverse square root of the degree at both ends of each message, multiplied. -/
theorem weights_val (V : Valuation τ sig (Elt F)) :
    after (weightOps (F := F)) V (Proc.devRef .tc main_v27)
      = Cert.Gcn.edgeNorm (Cert.Gcn.degInvSqrt (V (Proc.devRef .tc main_v6))) (V (Proc.devRef .tc main_v5)) (V (Proc.devRef .tc main_v6)) := by
  simp only [weightOps, hostOps0, List.drop_succ_cons, List.drop_zero]
  after_results_simp
  rfl

set_option maxRecDepth 8192 in
set_option maxHeartbeats 8000000 in
/-- The weight operations write neither of the messages' ends. -/
theorem weights_keep (V : Valuation τ sig (Elt F)) (b : Ref sig .tc) (hb : b ∈ ([main_v5, main_v6] : List (Ref sig .tc))) :
    after (weightOps (F := F)) V (Proc.devRef .tc b) = V (Proc.devRef .tc b) := by
  simp only [List.mem_cons, List.not_mem_nil, or_false] at hb
  simp only [weightOps, hostOps0, List.drop_succ_cons, List.drop_zero]
  rcases hb with rfl | rfl <;> after_results_simp

/-- After the first stretch: the sources, -/
theorem first_src (V : Valuation τ sig (Elt F)) :
    after (hostOps0 (F := F)) V (Proc.devRef .tc main_v5) = Cert.Gcn.srcIdx (V (Proc.devRef .tc main_arg1)) := by
  rw [hostOps0_split, after_append, weights_keep _ main_v5 (by decide), ends_src]

/-- the targets, -/
theorem first_dst (V : Valuation τ sig (Elt F)) :
    after (hostOps0 (F := F)) V (Proc.devRef .tc main_v6) = Cert.Gcn.dstIdx (V (Proc.devRef .tc main_arg1)) := by
  rw [hostOps0_split, after_append, weights_keep _ main_v6 (by decide), ends_dst]

/-- and the message weights of the graph. -/
theorem first_weights (V : Valuation τ sig (Elt F)) :
    after (hostOps0 (F := F)) V (Proc.devRef .tc main_v27) = Cert.Gcn.normOf (V (Proc.devRef .tc main_arg1)) := by
  rw [hostOps0_split, after_append, weights_val, ends_src, ends_dst]
  rfl

set_option maxRecDepth 8192 in
set_option maxHeartbeats 32000000 in
/-- The first stretch writes no argument. -/
theorem first_keep (V : Valuation τ sig (Elt F)) (b : Ref sig .tc)
    (hb : b ∈ ([main_arg0, main_arg2, main_arg3, main_arg4, main_arg5, main_arg6, main_arg7] : List (Ref sig .tc))) :
    after (hostOps0 (F := F)) V (Proc.devRef .tc b) = V (Proc.devRef .tc b) := by
  simp only [List.mem_cons, List.not_mem_nil, or_false] at hb
  rcases hb with rfl | rfl | rfl | rfl | rfl | rfl | rfl <;> after_results_simp

/-! ## The second stretch: the first round, then the rectifier -/

set_option maxRecDepth 8192 in
set_option maxHeartbeats 4000000 in
/-- The first round, from the rows the first grid left in `main_v28`. -/
theorem round1_val (V : Valuation τ sig (Elt F)) :
    after (hostOps1 (F := F)) V (Proc.devRef .tc main_v43)
      = Cert.Gcn.agg128 (V (Proc.devRef .tc main_v28)) (V (Proc.devRef .tc main_v27)) (V (Proc.devRef .tc main_v5)) (V (Proc.devRef .tc main_v6)) (V (Proc.devRef .tc main_arg3)) := by
  after_results_simp
  rfl

set_option maxRecDepth 8192 in
set_option maxHeartbeats 4000000 in
/-- The rectifier's slope is the stretch's last constant. -/
theorem round1_slope (V : Valuation τ sig (Elt F)) :
    after (hostOps1 (F := F)) V (Proc.devRef .tc main_cst_7) = Cert.Gcn.slope := by
  after_results_simp
  rfl

set_option maxRecDepth 8192 in
set_option maxHeartbeats 32000000 in
/-- The first round writes none of: the messages' ends and weights, the second round's weight matrices and biases. -/
theorem round1_keep (V : Valuation τ sig (Elt F)) (b : Ref sig .tc)
    (hb : b ∈ ([main_v5, main_v6, main_v27, main_arg4, main_arg5, main_arg6, main_arg7] : List (Ref sig .tc))) :
    after (hostOps1 (F := F)) V (Proc.devRef .tc b) = V (Proc.devRef .tc b) := by
  simp only [List.mem_cons, List.not_mem_nil, or_false] at hb
  rcases hb with rfl | rfl | rfl | rfl | rfl | rfl | rfl <;> after_results_simp

/-- The rectifier, from the first round's result and the slope. -/
theorem rect_val (V : Valuation τ sig (Elt F)) :
    after (hostOps1_1 (F := F)) V (Proc.devRef .tc main_v44) = Cert.Gcn.leaky (V (Proc.devRef .tc main_v43)) (V (Proc.devRef .tc main_cst_7)) := by
  after_results
  rfl

set_option maxRecDepth 8192 in
set_option maxHeartbeats 8000000 in
/-- Nor does the rectifier. -/
theorem rect_keep (V : Valuation τ sig (Elt F)) (b : Ref sig .tc)
    (hb : b ∈ ([main_v5, main_v6, main_v27, main_arg4, main_arg5, main_arg6, main_arg7] : List (Ref sig .tc))) :
    after (hostOps1_1 (F := F)) V (Proc.devRef .tc b) = V (Proc.devRef .tc b) := by
  simp only [List.mem_cons, List.not_mem_nil, or_false] at hb
  rcases hb with rfl | rfl | rfl | rfl | rfl | rfl | rfl <;> after_results_simp

/-! ## The last stretch: the second round, once per result -/

set_option maxRecDepth 8192 in
set_option maxHeartbeats 4000000 in
/-- The second round on the rows the second grid left in `main_v45_0`, with the first of the two biases. -/
theorem round2_val0 (V : Valuation τ sig (Elt F)) :
    after (hostOps2 (F := F)) V (Proc.devRef .tc main_v60)
      = Cert.Gcn.agg64 (V (Proc.devRef .tc main_v45_0)) (V (Proc.devRef .tc main_v27)) (V (Proc.devRef .tc main_v5)) (V (Proc.devRef .tc main_v6)) (V (Proc.devRef .tc main_arg5)) := by
  after_results_simp
  rfl

set_option maxRecDepth 8192 in
set_option maxHeartbeats 4000000 in
/-- The same on `main_v45_1`, with the second. -/
theorem round2_val1 (V : Valuation τ sig (Elt F)) :
    after (hostOps2 (F := F)) V (Proc.devRef .tc main_v75)
      = Cert.Gcn.agg64 (V (Proc.devRef .tc main_v45_1)) (V (Proc.devRef .tc main_v27)) (V (Proc.devRef .tc main_v5)) (V (Proc.devRef .tc main_v6)) (V (Proc.devRef .tc main_arg7)) := by
  after_results_simp
  rfl

end Stretches

/-! ## The fold, walked back from the results to the launch memory -/

section Fold

variable (m : (ℓ : Loc nD τ sig) → Buf (Elt Ideal) ℓ) (ρ : Dev nD → PrngReg) (c : Dev nD)

/-- What neither the second stretch nor a grid writes holds, when the second grid is left, what the first stretch
    left there: the messages' ends and weights, and the two biases of the second round. -/
theorem late_eq_first (b : Ref sig .tc) (hb : b ∈ ([main_v5, main_v6, main_v27, main_arg5, main_arg7] : List (Ref sig .tc))) :
    W5 m ρ c (Proc.devRef .tc b) = W1 m ρ c (Proc.devRef .tc b) := by
  simp only [List.mem_cons, List.not_mem_nil, or_false] at hb
  rcases hb with rfl | rfl | rfl | rfl | rfl
  all_goals
    refine (W5_of_ne m ρ c _ (by decide)).trans ((rect_keep (W3 m ρ c) _ (by decide)).trans
      ((round1_keep (W2 m ρ c) _ (by decide)).trans (W2_of_ne m ρ c _ (by decide))))

/-- A weight matrix of the second grid, when the grid is entered, is as launched. -/
theorem mid_eq_launch (b : Ref sig .tc) (hb : b ∈ ([main_arg4, main_arg6] : List (Ref sig .tc))) :
    W4 m ρ c (Proc.devRef .tc b) = m ((c.tc : Thread nD τ).loc b) := by
  simp only [List.mem_cons, List.not_mem_nil, or_false] at hb
  rcases hb with rfl | rfl
  all_goals
    refine (rect_keep (W3 m ρ c) _ (by decide)).trans ((round1_keep (W2 m ρ c) _ (by decide)).trans
      ((W2_of_ne m ρ c _ (by decide)).trans (first_keep (W0 m ρ c) _ (by decide))))

theorem late_src : W5 m ρ c (Proc.devRef .tc main_v5) = Cert.Gcn.srcIdx (m ((c.tc : Thread nD τ).loc main_arg1)) :=
  (late_eq_first m ρ c main_v5 (by decide)).trans (first_src (W0 m ρ c))
theorem late_dst : W5 m ρ c (Proc.devRef .tc main_v6) = Cert.Gcn.dstIdx (m ((c.tc : Thread nD τ).loc main_arg1)) :=
  (late_eq_first m ρ c main_v6 (by decide)).trans (first_dst (W0 m ρ c))
theorem late_weights : W5 m ρ c (Proc.devRef .tc main_v27) = Cert.Gcn.normOf (m ((c.tc : Thread nD τ).loc main_arg1)) :=
  (late_eq_first m ρ c main_v27 (by decide)).trans (first_weights (W0 m ρ c))
theorem late_bias0 : W5 m ρ c (Proc.devRef .tc main_arg5) = m ((c.tc : Thread nD τ).loc main_arg5) :=
  (late_eq_first m ρ c main_arg5 (by decide)).trans (first_keep (W0 m ρ c) main_arg5 (by decide))
theorem late_bias1 : W5 m ρ c (Proc.devRef .tc main_arg7) = m ((c.tc : Thread nD τ).loc main_arg7) :=
  (late_eq_first m ρ c main_arg7 (by decide)).trans (first_keep (W0 m ρ c) main_arg7 (by decide))

/-- The first grid leaves the features times the first weight matrix: it is entered with both as launched. -/
theorem grid1_rows : W2 m ρ c (Proc.devRef .tc main_v28)
    = Cert.Gcn.dot128 (m ((c.tc : Thread nD τ).loc main_arg0)) (m ((c.tc : Thread nD τ).loc main_arg2)) := by
  refine (W2_arr m ρ c 2).trans ((RegionValue.region0_out (V1 m ρ) c).trans ?_)
  show Cert.Gcn.dot128 (after hostOps0 (W0 m ρ c) (Proc.devRef .tc main_arg0)) (after hostOps0 (W0 m ρ c) (Proc.devRef .tc main_arg2)) = _
  rw [first_keep _ main_arg0 (by decide), first_keep _ main_arg2 (by decide)]

/-- The second grid is entered with the hidden features in `main_v44`: the first round on the first grid's rows, with
    the weights and ends the first stretch left, then the rectifier. -/
theorem hidden_rows : W4 m ρ c (Proc.devRef .tc main_v44)
    = Cert.Gcn.hidden (m ((c.tc : Thread nD τ).loc main_arg0)) (m ((c.tc : Thread nD τ).loc main_arg1)) (m ((c.tc : Thread nD τ).loc main_arg2)) (m ((c.tc : Thread nD τ).loc main_arg3)) := by
  unfold W4 W3
  rw [rect_val, round1_val, round1_slope, grid1_rows, W2_of_ne m ρ c main_v27 (by decide), W2_of_ne m ρ c main_v5 (by decide),
    W2_of_ne m ρ c main_v6 (by decide), W2_of_ne m ρ c main_arg3 (by decide)]
  unfold W1
  rw [first_weights, first_src, first_dst, first_keep _ main_arg3 (by decide)]
  rfl

/-- The second grid leaves the hidden features times each of its two weight matrices. -/
theorem grid2_rows0 : W5 m ρ c (Proc.devRef .tc main_v45_0)
    = Cert.Gcn.dot64 (Cert.Gcn.hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  refine (W5_arr m ρ c 3).trans ((RegionValue.region1_out3 (V4 m ρ) c).trans ?_)
  show Cert.Gcn.dot64 (W4 m ρ c (Proc.devRef .tc main_v44)) (W4 m ρ c (Proc.devRef .tc main_arg4)) = _
  rw [hidden_rows, mid_eq_launch m ρ c main_arg4 (by decide)]

theorem grid2_rows1 : W5 m ρ c (Proc.devRef .tc main_v45_1)
    = Cert.Gcn.dot64 (Cert.Gcn.hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6)) := by
  refine (W5_arr m ρ c 4).trans ((RegionValue.region1_out4 (V4 m ρ) c).trans ?_)
  show Cert.Gcn.dot64 (W4 m ρ c (Proc.devRef .tc main_v44)) (W4 m ρ c (Proc.devRef .tc main_arg6)) = _
  rw [hidden_rows, mid_eq_launch m ρ c main_arg6 (by decide)]

end Fold

variable (m : (ℓ : Loc nD τ sig) → Buf (Elt Ideal) ℓ) (ρ : Dev nD → PrngReg)

/-- The first result: the second round at the first of the two weight matrices and biases. -/
theorem result0 (c : Dev nD) :
    W6 m ρ c (Proc.devRef .tc main_v60) = Cert.Gcn.outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold W6
  rw [round2_val0, grid2_rows0, late_weights, late_src, late_dst, late_bias0]
  rfl

/-- The second result: the same at the second. -/
theorem result1 (c : Dev nD) :
    W6 m ρ c (Proc.devRef .tc main_v75) = Cert.Gcn.outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  unfold W6
  rw [round2_val1, grid2_rows1, late_weights, late_src, late_dst, late_bias1]
  rfl

end Cert.KernelIdeal.HostValue

end
-- ==== Proof.RefValue.lean ====
/-
  The reference program's run, read back: each of its two results is `Cert.Gcn.outOf` of the arguments.

  @main is a straight line of 139 operations once the rectifier's call is unfolded where it stands. The line is cut
  into four stages: the message ends (7 operations), the degrees, message weights, first round and rectifier (54),
  and the two second rounds (39 each). Each stage's result is one of the specification's functions of what the
  stage reads, from any contents; a stage leaves the buffers it does not write as they were; the run ends every
  buffer at the four stages' fold over the launch contents. Composing the four gives `outOf`.
-/
import proofs.«124347_j62904091018060_1_alg».proof.Proof.Gen.ReferenceIdeal
import proofs.«124347_j62904091018060_1_alg».proof.Proof.Spec
import Idealize.ShloMosaic.Lib.StableHlo.Run

noncomputable section

namespace Cert.ReferenceIdeal.RefValue

open Idealize.ShloMosaic Idealize.ShloMosaic.TcCoe Idealize.SL.Sem Idealize.ShloMosaic.StableHlo
open Cert.ReferenceIdeal Cert.ReferenceIdeal.Gen

variable {F : FTy → Type} [FloatOps F]

/-! ## The operations, by stage -/

/-- The message ends: row 0 and row 1 of the edge list, each followed by every node's own number. -/
abbrev RA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The degrees and their inverse square roots, the first matrix product, the message weights, the first round and the rectifier (the callee's seven operations at its call). -/
abbrev RB : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    binary main_arg0 main_arg2 main_v12 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c (constantI S_ 32 0#32),
    unary main_c main_v13 (broadcastInDim S850000 ![] bcast_S_S850000 : (⟨S_, .i32⟩ : BufTy).Contents (Elt F) → (⟨S850000, .i32⟩ : BufTy).Contents (Elt F)),
    binary main_v3 main_v13 main_v14 (cmpi .slt : (⟨S850000, .i32⟩ : BufTy).Contents (Elt F) → (⟨S850000, .i32⟩ : BufTy).Contents (Elt F) → (⟨S850000, .i1⟩ : BufTy).Contents (Elt F)),
    nullary main_c_1 (constantI S_ 32 50000#32),
    unary main_c_1 main_v15 (broadcastInDim S850000 ![] bcast_S_S850000 : (⟨S_, .i32⟩ : BufTy).Contents (Elt F) → (⟨S850000, .i32⟩ : BufTy).Contents (Elt F)),
    binary main_v3 main_v15 main_v16 (addi : (⟨S850000, .i32⟩ : BufTy).Contents (Elt F) → (⟨S850000, .i32⟩ : BufTy).Contents (Elt F) → (⟨S850000, .i32⟩ : BufTy).Contents (Elt F)),
    ternary main_v14 main_v16 main_v3 main_v17 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v17 main_v18 (broadcastInDim S850000x1 ![0] bcast_S850000_S850000x1_0 : (⟨S850000, .i32⟩ : BufTy).Contents (Elt F) → (⟨S850000x1, .i32⟩ : BufTy).Contents (Elt F)),
    binary main_v11 main_v18 main_v19 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_2 (constantI S_ 32 0#32),
    unary main_c_2 main_v20 (broadcastInDim S850000 ![] bcast_S_S850000 : (⟨S_, .i32⟩ : BufTy).Contents (Elt F) → (⟨S850000, .i32⟩ : BufTy).Contents (Elt F)),
    binary main_v6 main_v20 main_v21 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v22 (broadcastInDim S850000 ![] bcast_S_S850000 : (⟨S_, .i32⟩ : BufTy).Contents (Elt F) → (⟨S850000, .i32⟩ : BufTy).Contents (Elt F)),
    binary main_v6 main_v22 main_v23 (addi : (⟨S850000, .i32⟩ : BufTy).Contents (Elt F) → (⟨S850000, .i32⟩ : BufTy).Contents (Elt F) → (⟨S850000, .i32⟩ : BufTy).Contents (Elt F)),
    ternary main_v21 main_v23 main_v6 main_v24 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v24 main_v25 (broadcastInDim S850000x1 ![0] bcast_S850000_S850000x1_0 : (⟨S850000, .i32⟩ : BufTy).Contents (Elt F) → (⟨S850000x1, .i32⟩ : BufTy).Contents (Elt F)),
    binary main_v11 main_v25 main_v26 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v19 main_v26 main_v27 (mulf : (⟨S850000, .f32⟩ : BufTy).Contents (Elt F) → (⟨S850000, .f32⟩ : BufTy).Contents (Elt F) → (⟨S850000, .f32⟩ : BufTy).Contents (Elt F)),
    unary main_v27 main_v28 (broadcastInDim S850000x1 ![0] bcast_S850000_S850000x1_0 : (⟨S850000, .f32⟩ : BufTy).Contents (Elt F) → (⟨S850000x1, .f32⟩ : BufTy).Contents (Elt F)),
    nullary main_c_4 (constantI S_ 32 0#32),
    unary main_c_4 main_v29 (broadcastInDim S850000 ![] bcast_S_S850000 : (⟨S_, .i32⟩ : BufTy).Contents (Elt F) → (⟨S850000, .i32⟩ : BufTy).Contents (Elt F)),
    binary main_v3 main_v29 main_v30 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v31 (broadcastInDim S850000 ![] bcast_S_S850000 : (⟨S_, .i32⟩ : BufTy).Contents (Elt F) → (⟨S850000, .i32⟩ : BufTy).Contents (Elt F)),
    binary main_v3 main_v31 main_v32 (addi : (⟨S850000, .i32⟩ : BufTy).Contents (Elt F) → (⟨S850000, .i32⟩ : BufTy).Contents (Elt F) → (⟨S850000, .i32⟩ : BufTy).Contents (Elt F)),
    ternary main_v30 main_v32 main_v3 main_v33 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v33 main_v34 (broadcastInDim S850000x1 ![0] bcast_S850000_S850000x1_0 : (⟨S850000, .i32⟩ : BufTy).Contents (Elt F) → (⟨S850000x1, .i32⟩ : BufTy).Contents (Elt F)),
    binary main_v12 main_v34 main_v35 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v28 main_v36 (broadcastInDim S850000x128 ![0, 1] bcast_S850000x1_S850000x128_0_1 : (⟨S850000x1, .f32⟩ : BufTy).Contents (Elt F) → (⟨S850000x128, .f32⟩ : BufTy).Contents (Elt F)),
    binary main_v35 main_v36 main_v37 (mulf : (⟨S850000x128, .f32⟩ : BufTy).Contents (Elt F) → (⟨S850000x128, .f32⟩ : BufTy).Contents (Elt F) → (⟨S850000x128, .f32⟩ : BufTy).Contents (Elt F)),
    nullary main_cst_6 (constant S_ .f32 0x00000000#32),
    unary main_cst_6 main_v38 (broadcastInDim S50000x128 ![] bcast_S_S50000x128 : (⟨S_, .f32⟩ : BufTy).Contents (Elt F) → (⟨S50000x128, .f32⟩ : BufTy).Contents (Elt F)),
    unary main_v6 main_v39 (broadcastInDim S850000x1 ![0] bcast_S850000_S850000x1_0 : (⟨S850000, .i32⟩ : BufTy).Contents (Elt F) → (⟨S850000x1, .i32⟩ : BufTy).Contents (Elt F)),
    ternary main_v38 main_v39 main_v37 main_v40 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (addf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3C23D70A#32),
    TRef.nullary main_call0.cst (constant S_ .f32 0x00000000#32),
    TRef.unary main_call0.cst main_call0.v0 (broadcastInDim S50000x128 ![] bcast_S_S50000x128),
    TRef.binary (.of main_v43 : TRef sig ⟨S50000x128, .f32⟩) main_call0.v0 main_call0.v1 (cmpf .oge),
    TRef.unary (.of main_cst_7 : TRef sig ⟨S_, .f32⟩) main_call0.v2 id,
    TRef.unary main_call0.v2 main_call0.v3 (broadcastInDim S50000x128 ![] bcast_S_S50000x128),
    TRef.binary main_call0.v3 (.of main_v43 : TRef sig ⟨S50000x128, .f32⟩) main_call0.v4 mulf,
    TRef.ternary main_call0.v1 (.of main_v43 : TRef sig ⟨S50000x128, .f32⟩) main_call0.v4 main_call0.call0.v0 select ]

/-- The second round at the first weight matrix and bias. -/
abbrev RC : List (HloOp τ sig (Elt F)) :=
  [ binary main_v44 main_arg4 main_v45 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_8 (constantI S_ 32 0#32),
    unary main_c_8 main_v46 (broadcastInDim S850000 ![] bcast_S_S850000 : (⟨S_, .i32⟩ : BufTy).Contents (Elt F) → (⟨S850000, .i32⟩ : BufTy).Contents (Elt F)),
    binary main_v3 main_v46 main_v47 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v48 (broadcastInDim S850000 ![] bcast_S_S850000 : (⟨S_, .i32⟩ : BufTy).Contents (Elt F) → (⟨S850000, .i32⟩ : BufTy).Contents (Elt F)),
    binary main_v3 main_v48 main_v49 (addi : (⟨S850000, .i32⟩ : BufTy).Contents (Elt F) → (⟨S850000, .i32⟩ : BufTy).Contents (Elt F) → (⟨S850000, .i32⟩ : BufTy).Contents (Elt F)),
    ternary main_v47 main_v49 main_v3 main_v50 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v50 main_v51 (broadcastInDim S850000x1 ![0] bcast_S850000_S850000x1_0 : (⟨S850000, .i32⟩ : BufTy).Contents (Elt F) → (⟨S850000x1, .i32⟩ : BufTy).Contents (Elt F)),
    binary main_v11 main_v51 main_v52 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_10 (constantI S_ 32 0#32),
    unary main_c_10 main_v53 (broadcastInDim S850000 ![] bcast_S_S850000 : (⟨S_, .i32⟩ : BufTy).Contents (Elt F) → (⟨S850000, .i32⟩ : BufTy).Contents (Elt F)),
    binary main_v6 main_v53 main_v54 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v55 (broadcastInDim S850000 ![] bcast_S_S850000 : (⟨S_, .i32⟩ : BufTy).Contents (Elt F) → (⟨S850000, .i32⟩ : BufTy).Contents (Elt F)),
    binary main_v6 main_v55 main_v56 (addi : (⟨S850000, .i32⟩ : BufTy).Contents (Elt F) → (⟨S850000, .i32⟩ : BufTy).Contents (Elt F) → (⟨S850000, .i32⟩ : BufTy).Contents (Elt F)),
    ternary main_v54 main_v56 main_v6 main_v57 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v57 main_v58 (broadcastInDim S850000x1 ![0] bcast_S850000_S850000x1_0 : (⟨S850000, .i32⟩ : BufTy).Contents (Elt F) → (⟨S850000x1, .i32⟩ : BufTy).Contents (Elt F)),
    binary main_v11 main_v58 main_v59 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v52 main_v59 main_v60 (mulf : (⟨S850000, .f32⟩ : BufTy).Contents (Elt F) → (⟨S850000, .f32⟩ : BufTy).Contents (Elt F) → (⟨S850000, .f32⟩ : BufTy).Contents (Elt F)),
    unary main_v60 main_v61 (broadcastInDim S850000x1 ![0] bcast_S850000_S850000x1_0 : (⟨S850000, .f32⟩ : BufTy).Contents (Elt F) → (⟨S850000x1, .f32⟩ : BufTy).Contents (Elt F)),
    nullary main_c_12 (constantI S_ 32 0#32),
    unary main_c_12 main_v62 (broadcastInDim S850000 ![] bcast_S_S850000 : (⟨S_, .i32⟩ : BufTy).Contents (Elt F) → (⟨S850000, .i32⟩ : BufTy).Contents (Elt F)),
    binary main_v3 main_v62 main_v63 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v64 (broadcastInDim S850000 ![] bcast_S_S850000 : (⟨S_, .i32⟩ : BufTy).Contents (Elt F) → (⟨S850000, .i32⟩ : BufTy).Contents (Elt F)),
    binary main_v3 main_v64 main_v65 (addi : (⟨S850000, .i32⟩ : BufTy).Contents (Elt F) → (⟨S850000, .i32⟩ : BufTy).Contents (Elt F) → (⟨S850000, .i32⟩ : BufTy).Contents (Elt F)),
    ternary main_v63 main_v65 main_v3 main_v66 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v66 main_v67 (broadcastInDim S850000x1 ![0] bcast_S850000_S850000x1_0 : (⟨S850000, .i32⟩ : BufTy).Contents (Elt F) → (⟨S850000x1, .i32⟩ : BufTy).Contents (Elt F)),
    binary main_v45 main_v67 main_v68 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v61 main_v69 (broadcastInDim S850000x64 ![0, 1] bcast_S850000x1_S850000x64_0_1 : (⟨S850000x1, .f32⟩ : BufTy).Contents (Elt F) → (⟨S850000x64, .f32⟩ : BufTy).Contents (Elt F)),
    binary main_v68 main_v69 main_v70 (mulf : (⟨S850000x64, .f32⟩ : BufTy).Contents (Elt F) → (⟨S850000x64, .f32⟩ : BufTy).Contents (Elt F) → (⟨S850000x64, .f32⟩ : BufTy).Contents (Elt F)),
    nullary main_cst_14 (constant S_ .f32 0x00000000#32),
    unary main_cst_14 main_v71 (broadcastInDim S50000x64 ![] bcast_S_S50000x64 : (⟨S_, .f32⟩ : BufTy).Contents (Elt F) → (⟨S50000x64, .f32⟩ : BufTy).Contents (Elt F)),
    unary main_v6 main_v72 (broadcastInDim S850000x1 ![0] bcast_S850000_S850000x1_0 : (⟨S850000, .i32⟩ : BufTy).Contents (Elt F) → (⟨S850000x1, .i32⟩ : BufTy).Contents (Elt F)),
    ternary main_v71 main_v72 main_v70 main_v73 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v74 (broadcastInDim S1x64 ![1] bcast_S64_S1x64_1 : (⟨S64, .f32⟩ : BufTy).Contents (Elt F) → (⟨S1x64, .f32⟩ : BufTy).Contents (Elt F)),
    unary main_v74 main_v75 (broadcastInDim S50000x64 ![0, 1] bcast_S1x64_S50000x64_0_1 : (⟨S1x64, .f32⟩ : BufTy).Contents (Elt F) → (⟨S50000x64, .f32⟩ : BufTy).Contents (Elt F)),
    binary main_v73 main_v75 main_v76 (addf : (⟨S50000x64, .f32⟩ : BufTy).Contents (Elt F) → (⟨S50000x64, .f32⟩ : BufTy).Contents (Elt F) → (⟨S50000x64, .f32⟩ : BufTy).Contents (Elt F)) ]

/-- The second round at the second weight matrix and bias. -/
abbrev RD : List (HloOp τ sig (Elt F)) :=
  [ binary main_v44 main_arg6 main_v77 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_15 (constantI S_ 32 0#32),
    unary main_c_15 main_v78 (broadcastInDim S850000 ![] bcast_S_S850000 : (⟨S_, .i32⟩ : BufTy).Contents (Elt F) → (⟨S850000, .i32⟩ : BufTy).Contents (Elt F)),
    binary main_v3 main_v78 main_v79 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v80 (broadcastInDim S850000 ![] bcast_S_S850000 : (⟨S_, .i32⟩ : BufTy).Contents (Elt F) → (⟨S850000, .i32⟩ : BufTy).Contents (Elt F)),
    binary main_v3 main_v80 main_v81 (addi : (⟨S850000, .i32⟩ : BufTy).Contents (Elt F) → (⟨S850000, .i32⟩ : BufTy).Contents (Elt F) → (⟨S850000, .i32⟩ : BufTy).Contents (Elt F)),
    ternary main_v79 main_v81 main_v3 main_v82 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v82 main_v83 (broadcastInDim S850000x1 ![0] bcast_S850000_S850000x1_0 : (⟨S850000, .i32⟩ : BufTy).Contents (Elt F) → (⟨S850000x1, .i32⟩ : BufTy).Contents (Elt F)),
    binary main_v11 main_v83 main_v84 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_17 (constantI S_ 32 0#32),
    unary main_c_17 main_v85 (broadcastInDim S850000 ![] bcast_S_S850000 : (⟨S_, .i32⟩ : BufTy).Contents (Elt F) → (⟨S850000, .i32⟩ : BufTy).Contents (Elt F)),
    binary main_v6 main_v85 main_v86 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v87 (broadcastInDim S850000 ![] bcast_S_S850000 : (⟨S_, .i32⟩ : BufTy).Contents (Elt F) → (⟨S850000, .i32⟩ : BufTy).Contents (Elt F)),
    binary main_v6 main_v87 main_v88 (addi : (⟨S850000, .i32⟩ : BufTy).Contents (Elt F) → (⟨S850000, .i32⟩ : BufTy).Contents (Elt F) → (⟨S850000, .i32⟩ : BufTy).Contents (Elt F)),
    ternary main_v86 main_v88 main_v6 main_v89 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v89 main_v90 (broadcastInDim S850000x1 ![0] bcast_S850000_S850000x1_0 : (⟨S850000, .i32⟩ : BufTy).Contents (Elt F) → (⟨S850000x1, .i32⟩ : BufTy).Contents (Elt F)),
    binary main_v11 main_v90 main_v91 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v84 main_v91 main_v92 (mulf : (⟨S850000, .f32⟩ : BufTy).Contents (Elt F) → (⟨S850000, .f32⟩ : BufTy).Contents (Elt F) → (⟨S850000, .f32⟩ : BufTy).Contents (Elt F)),
    unary main_v92 main_v93 (broadcastInDim S850000x1 ![0] bcast_S850000_S850000x1_0 : (⟨S850000, .f32⟩ : BufTy).Contents (Elt F) → (⟨S850000x1, .f32⟩ : BufTy).Contents (Elt F)),
    nullary main_c_19 (constantI S_ 32 0#32),
    unary main_c_19 main_v94 (broadcastInDim S850000 ![] bcast_S_S850000 : (⟨S_, .i32⟩ : BufTy).Contents (Elt F) → (⟨S850000, .i32⟩ : BufTy).Contents (Elt F)),
    binary main_v3 main_v94 main_v95 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v96 (broadcastInDim S850000 ![] bcast_S_S850000 : (⟨S_, .i32⟩ : BufTy).Contents (Elt F) → (⟨S850000, .i32⟩ : BufTy).Contents (Elt F)),
    binary main_v3 main_v96 main_v97 (addi : (⟨S850000, .i32⟩ : BufTy).Contents (Elt F) → (⟨S850000, .i32⟩ : BufTy).Contents (Elt F) → (⟨S850000, .i32⟩ : BufTy).Contents (Elt F)),
    ternary main_v95 main_v97 main_v3 main_v98 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v98 main_v99 (broadcastInDim S850000x1 ![0] bcast_S850000_S850000x1_0 : (⟨S850000, .i32⟩ : BufTy).Contents (Elt F) → (⟨S850000x1, .i32⟩ : BufTy).Contents (Elt F)),
    binary main_v77 main_v99 main_v100 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v93 main_v101 (broadcastInDim S850000x64 ![0, 1] bcast_S850000x1_S850000x64_0_1 : (⟨S850000x1, .f32⟩ : BufTy).Contents (Elt F) → (⟨S850000x64, .f32⟩ : BufTy).Contents (Elt F)),
    binary main_v100 main_v101 main_v102 (mulf : (⟨S850000x64, .f32⟩ : BufTy).Contents (Elt F) → (⟨S850000x64, .f32⟩ : BufTy).Contents (Elt F) → (⟨S850000x64, .f32⟩ : BufTy).Contents (Elt F)),
    nullary main_cst_21 (constant S_ .f32 0x00000000#32),
    unary main_cst_21 main_v103 (broadcastInDim S50000x64 ![] bcast_S_S50000x64 : (⟨S_, .f32⟩ : BufTy).Contents (Elt F) → (⟨S50000x64, .f32⟩ : BufTy).Contents (Elt F)),
    unary main_v6 main_v104 (broadcastInDim S850000x1 ![0] bcast_S850000_S850000x1_0 : (⟨S850000, .i32⟩ : BufTy).Contents (Elt F) → (⟨S850000x1, .i32⟩ : BufTy).Contents (Elt F)),
    ternary main_v103 main_v104 main_v102 main_v105 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg7 main_v106 (broadcastInDim S1x64 ![1] bcast_S64_S1x64_1 : (⟨S64, .f32⟩ : BufTy).Contents (Elt F) → (⟨S1x64, .f32⟩ : BufTy).Contents (Elt F)),
    unary main_v106 main_v107 (broadcastInDim S50000x64 ![0, 1] bcast_S1x64_S50000x64_0_1 : (⟨S1x64, .f32⟩ : BufTy).Contents (Elt F) → (⟨S50000x64, .f32⟩ : BufTy).Contents (Elt F)),
    binary main_v105 main_v107 main_v108 (addf : (⟨S50000x64, .f32⟩ : BufTy).Contents (Elt F) → (⟨S50000x64, .f32⟩ : BufTy).Contents (Elt F) → (⟨S50000x64, .f32⟩ : BufTy).Contents (Elt F)) ]

/-- @main's 139 operations, in order: the four stages. -/
abbrev ops : List (HloOp τ sig (Elt F)) := RA ++ (RB ++ (RC ++ RD))

/-! The printed program runs @main as three windows; the stages cut it elsewhere, so each window is the
    run of a stretch of the stages, and the three stretches together are the whole list. -/

set_option maxRecDepth 8192 in
set_option maxHeartbeats 4000000 in
theorem main_part0_eq (c : Dev nD) : main_part0 (F := F) c = seq (RA ++ (RB ++ RC.take 5)) := rfl

set_option maxRecDepth 8192 in
set_option maxHeartbeats 4000000 in
theorem main_part1_eq (c : Dev nD) : main_part1 (F := F) c = seq (RC.drop 5 ++ RD.take 26) := rfl

set_option maxRecDepth 8192 in
set_option maxHeartbeats 4000000 in
theorem main_part2_eq (c : Dev nD) : main_part2 (F := F) c = seq (RD.drop 26) := rfl

/-- The three windows' stretches, concatenated, are the four stages. -/
theorem ops_windows :
    (RA ++ (RB ++ RC.take 5)) ++ ((RC.drop 5 ++ RD.take 26) ++ RD.drop 26) = (ops : List (HloOp τ sig (Elt F))) := by
  simp only [List.append_assoc]
  rw [List.take_append_drop 26 RD, ← List.append_assoc (RC.take 5), List.take_append_drop]

theorem main_eq (c : Dev nD) : main (F := F) c = seq ops := by
  rw [← ops_windows, seq_append (RA ++ (RB ++ RC.take 5)), seq_append (RC.drop 5 ++ RD.take 26) (RD.drop 26),
    ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem RA_sub : (RA : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub ..⟩

theorem RB_sub : (RB : List (HloOp τ sig (Elt F))).Forall fun op => op.bufs ⊆ tcRefs τ sig :=
  ⟨nullary_bufs_sub .., unary_bufs_sub .., nullary_bufs_sub .., unary_bufs_sub .., unary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..⟩

theorem RC_sub : (RC : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., unary_bufs_sub .., binary_bufs_sub ..⟩

theorem RD_sub : (RD : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp RA_sub op h, List.forall_iff_forall_mem.mp RB_sub op h,
      List.forall_iff_forall_mem.mp RC_sub op h, List.forall_iff_forall_mem.mp RD_sub op h]

set_option maxRecDepth 8192 in
set_option maxHeartbeats 4000000 in
/-- Every weakly fair execution of @main terminates, each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The values -/

/-- Two stretches run one after the other: the second from what the first leaves. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## Stage A: the message ends -/

/-- After the first stage the sources' buffer holds `srcIdx` of the edge list. -/
theorem RA_v3 (V : Valuation τ sig (Elt F)) :
    after RA V (main_v3 : DevRef τ sig) = Cert.Gcn.srcIdx (V (main_arg1 : DevRef τ sig)) := by
  after_results
  rfl

/-- After the first stage the targets' buffer holds `dstIdx` of the edge list. -/
theorem RA_v6 (V : Valuation τ sig (Elt F)) :
    after RA V (main_v6 : DevRef τ sig) = Cert.Gcn.dstIdx (V (main_arg1 : DevRef τ sig)) := by
  after_results
  rfl

/-! ## Stage B: the degrees, the message weights, the first round and the rectifier -/

attribute [local irreducible] Host.gather Host.scatterAdd Host.rsqrt concatenate in
set_option maxRecDepth 8192 in
set_option maxHeartbeats 4000000 in
/-- The second stage leaves, where the rectifier's result goes, the rectified first round: one round over 128
    features of the rows `dot128` makes of the inputs, the message weights computed from the degrees. -/
theorem RB_v44 (V : Valuation τ sig (Elt F)) :
    after RB V (main_v44 : DevRef τ sig)
      = Cert.Gcn.leaky
          (Cert.Gcn.agg128 (Cert.Gcn.dot128 (V (main_arg0 : DevRef τ sig)) (V (main_arg2 : DevRef τ sig)))
            (Cert.Gcn.edgeNorm (Cert.Gcn.degInvSqrt (V (main_v6 : DevRef τ sig))) (V (main_v3 : DevRef τ sig)) (V (main_v6 : DevRef τ sig)))
            (V (main_v3 : DevRef τ sig)) (V (main_v6 : DevRef τ sig)) (V (main_arg3 : DevRef τ sig)))
          Cert.Gcn.slope := by
  after_results_simp
  unfold Cert.Gcn.leaky Cert.Gcn.agg128 Cert.Gcn.dot128 Cert.Gcn.edgeNorm Cert.Gcn.degInvSqrt Cert.Gcn.wrapIdx Cert.Gcn.slope
  rfl

attribute [local irreducible] Host.gather Host.scatterAdd Host.rsqrt concatenate in
set_option maxRecDepth 8192 in
set_option maxHeartbeats 4000000 in
/-- The second stage leaves the inverse square roots of the degrees in their buffer. -/
theorem RB_v11 (V : Valuation τ sig (Elt F)) :
    after RB V (main_v11 : DevRef τ sig) = Cert.Gcn.degInvSqrt (V (main_v6 : DevRef τ sig)) := by
  after_results_simp
  unfold Cert.Gcn.degInvSqrt
  rfl

/-! ## Stage C: a second round -/

attribute [local irreducible] Host.gather Host.scatterAdd Host.rsqrt concatenate in
set_option maxRecDepth 8192 in
set_option maxHeartbeats 4000000 in
/-- The third stage leaves the first result at one round over 64 features of the rows `dot64` makes of the hidden
    features, with the message weights recomputed from the inverse square roots of the degrees. -/
theorem RC_v76 (V : Valuation τ sig (Elt F)) :
    after RC V (main_v76 : DevRef τ sig)
      = Cert.Gcn.agg64 (Cert.Gcn.dot64 (V (main_v44 : DevRef τ sig)) (V (main_arg4 : DevRef τ sig)))
          (Cert.Gcn.edgeNorm (V (main_v11 : DevRef τ sig)) (V (main_v3 : DevRef τ sig)) (V (main_v6 : DevRef τ sig)))
          (V (main_v3 : DevRef τ sig)) (V (main_v6 : DevRef τ sig)) (V (main_arg5 : DevRef τ sig)) := by
  after_results_simp
  unfold Cert.Gcn.agg64 Cert.Gcn.dot64 Cert.Gcn.edgeNorm Cert.Gcn.wrapIdx
  rfl

/-! ## Stage D: the other second round -/

attribute [local irreducible] Host.gather Host.scatterAdd Host.rsqrt concatenate in
set_option maxRecDepth 8192 in
set_option maxHeartbeats 4000000 in
/-- The fourth stage leaves the second result at the same round, at the other weight matrix and bias. -/
theorem RD_v108 (V : Valuation τ sig (Elt F)) :
    after RD V (main_v108 : DevRef τ sig)
      = Cert.Gcn.agg64 (Cert.Gcn.dot64 (V (main_v44 : DevRef τ sig)) (V (main_arg6 : DevRef τ sig)))
          (Cert.Gcn.edgeNorm (V (main_v11 : DevRef τ sig)) (V (main_v3 : DevRef τ sig)) (V (main_v6 : DevRef τ sig)))
          (V (main_v3 : DevRef τ sig)) (V (main_v6 : DevRef τ sig)) (V (main_arg7 : DevRef τ sig)) := by
  after_results_simp
  unfold Cert.Gcn.agg64 Cert.Gcn.dot64 Cert.Gcn.edgeNorm Cert.Gcn.wrapIdx
  rfl

/-! ## What each stage leaves alone

A stage writes only its own values' buffers: the arguments, and the earlier values a later stage reads, keep their contents. -/

set_option maxRecDepth 8192 in
set_option maxHeartbeats 4000000 in
/-- The first stage writes none of the arguments. -/
theorem RA_keeps (V : Valuation τ sig (Elt F)) :
    after RA V (main_arg0 : DevRef τ sig) = V (main_arg0 : DevRef τ sig)
    ∧ after RA V (main_arg1 : DevRef τ sig) = V (main_arg1 : DevRef τ sig)
    ∧ after RA V (main_arg2 : DevRef τ sig) = V (main_arg2 : DevRef τ sig)
    ∧ after RA V (main_arg3 : DevRef τ sig) = V (main_arg3 : DevRef τ sig)
    ∧ after RA V (main_arg4 : DevRef τ sig) = V (main_arg4 : DevRef τ sig)
    ∧ after RA V (main_arg5 : DevRef τ sig) = V (main_arg5 : DevRef τ sig)
    ∧ after RA V (main_arg6 : DevRef τ sig) = V (main_arg6 : DevRef τ sig)
    ∧ after RA V (main_arg7 : DevRef τ sig) = V (main_arg7 : DevRef τ sig) := by
  refine ⟨?_, ?_, ?_, ?_, ?_, ?_, ?_, ?_⟩ <;> after_results_simp

set_option maxRecDepth 8192 in
set_option maxHeartbeats 4000000 in
/-- The second stage writes neither the message ends nor an argument. -/
theorem RB_keeps (V : Valuation τ sig (Elt F)) :
    after RB V (main_v3 : DevRef τ sig) = V (main_v3 : DevRef τ sig)
    ∧ after RB V (main_v6 : DevRef τ sig) = V (main_v6 : DevRef τ sig)
    ∧ after RB V (main_arg0 : DevRef τ sig) = V (main_arg0 : DevRef τ sig)
    ∧ after RB V (main_arg1 : DevRef τ sig) = V (main_arg1 : DevRef τ sig)
    ∧ after RB V (main_arg2 : DevRef τ sig) = V (main_arg2 : DevRef τ sig)
    ∧ after RB V (main_arg3 : DevRef τ sig) = V (main_arg3 : DevRef τ sig)
    ∧ after RB V (main_arg4 : DevRef τ sig) = V (main_arg4 : DevRef τ sig)
    ∧ after RB V (main_arg5 : DevRef τ sig) = V (main_arg5 : DevRef τ sig)
    ∧ after RB V (main_arg6 : DevRef τ sig) = V (main_arg6 : DevRef τ sig)
    ∧ after RB V (main_arg7 : DevRef τ sig) = V (main_arg7 : DevRef τ sig) := by
  refine ⟨?_, ?_, ?_, ?_, ?_, ?_, ?_, ?_, ?_, ?_⟩ <;> after_results_simp

set_option maxRecDepth 8192 in
set_option maxHeartbeats 4000000 in
/-- The third stage writes neither the message ends, the inverse square roots of the degrees, the hidden features, nor an argument. -/
theorem RC_keeps (V : Valuation τ sig (Elt F)) :
    after RC V (main_v3 : DevRef τ sig) = V (main_v3 : DevRef τ sig)
    ∧ after RC V (main_v6 : DevRef τ sig) = V (main_v6 : DevRef τ sig)
    ∧ after RC V (main_v11 : DevRef τ sig) = V (main_v11 : DevRef τ sig)
    ∧ after RC V (main_v44 : DevRef τ sig) = V (main_v44 : DevRef τ sig)
    ∧ after RC V (main_arg0 : DevRef τ sig) = V (main_arg0 : DevRef τ sig)
    ∧ after RC V (main_arg1 : DevRef τ sig) = V (main_arg1 : DevRef τ sig)
    ∧ after RC V (main_arg2 : DevRef τ sig) = V (main_arg2 : DevRef τ sig)
    ∧ after RC V (main_arg3 : DevRef τ sig) = V (main_arg3 : DevRef τ sig)
    ∧ after RC V (main_arg4 : DevRef τ sig) = V (main_arg4 : DevRef τ sig)
    ∧ after RC V (main_arg5 : DevRef τ sig) = V (main_arg5 : DevRef τ sig)
    ∧ after RC V (main_arg6 : DevRef τ sig) = V (main_arg6 : DevRef τ sig)
    ∧ after RC V (main_arg7 : DevRef τ sig) = V (main_arg7 : DevRef τ sig) := by
  refine ⟨?_, ?_, ?_, ?_, ?_, ?_, ?_, ?_, ?_, ?_, ?_, ?_⟩ <;> after_results_simp

set_option maxRecDepth 8192 in
set_option maxHeartbeats 4000000 in
/-- The fourth stage writes neither the first result nor an argument. -/
theorem RD_keeps (V : Valuation τ sig (Elt F)) :
    after RD V (main_v76 : DevRef τ sig) = V (main_v76 : DevRef τ sig)
    ∧ after RD V (main_arg0 : DevRef τ sig) = V (main_arg0 : DevRef τ sig)
    ∧ after RD V (main_arg1 : DevRef τ sig) = V (main_arg1 : DevRef τ sig)
    ∧ after RD V (main_arg2 : DevRef τ sig) = V (main_arg2 : DevRef τ sig)
    ∧ after RD V (main_arg3 : DevRef τ sig) = V (main_arg3 : DevRef τ sig)
    ∧ after RD V (main_arg4 : DevRef τ sig) = V (main_arg4 : DevRef τ sig)
    ∧ after RD V (main_arg5 : DevRef τ sig) = V (main_arg5 : DevRef τ sig)
    ∧ after RD V (main_arg6 : DevRef τ sig) = V (main_arg6 : DevRef τ sig)
    ∧ after RD V (main_arg7 : DevRef τ sig) = V (main_arg7 : DevRef τ sig) := by
  refine ⟨?_, ?_, ?_, ?_, ?_, ?_, ?_, ?_, ?_⟩ <;> after_results_simp

/-! ## The four stages composed -/

/-- The whole list from any contents: the four stages in turn, each from what the one before leaves. -/
theorem after_ops (V : Valuation τ sig (Elt F)) :
    after ops V = after RD (after RC (after RB (after RA V))) := by
  show after (RA ++ (RB ++ (RC ++ RD))) V = _
  rw [after_app, after_app, after_app]

/-- The first result is two rounds of the arguments, at the first second-round weight matrix and bias: the fourth
    stage keeps it, the third computes it from the hidden features and the inverse square roots the second leaves
    and the message ends the first leaves, each kept in between. -/
theorem out76 (V : Valuation τ sig (Elt F)) :
    after ops V (main_v76 : DevRef τ sig)
      = Cert.Gcn.outOf (V (main_arg0 : DevRef τ sig)) (V (main_arg1 : DevRef τ sig)) (V (main_arg2 : DevRef τ sig)) (V (main_arg3 : DevRef τ sig)) (V (main_arg4 : DevRef τ sig)) (V (main_arg5 : DevRef τ sig)) := by
  obtain ⟨a0, a1, a2, a3, a4, a5, a6, a7⟩ := RA_keeps V
  obtain ⟨bs, bd, b0, b1, b2, b3, b4, b5, b6, b7⟩ := RB_keeps (after RA V)
  obtain ⟨d76, d0, d1, d2, d3, d4, d5, d6, d7⟩ := RD_keeps (after RC (after RB (after RA V)))
  rw [after_ops, d76, RC_v76, RB_v44, RB_v11, bs, bd, b4, b5, RA_v3, RA_v6, a0, a2, a3, a4, a5]
  unfold Cert.Gcn.outOf Cert.Gcn.hidden Cert.Gcn.normOf
  rfl

/-- The second result likewise, at the other weight matrix and bias: the fourth stage computes it from what the
    third keeps of the second's and the first's. -/
theorem out108 (V : Valuation τ sig (Elt F)) :
    after ops V (main_v108 : DevRef τ sig)
      = Cert.Gcn.outOf (V (main_arg0 : DevRef τ sig)) (V (main_arg1 : DevRef τ sig)) (V (main_arg2 : DevRef τ sig)) (V (main_arg3 : DevRef τ sig)) (V (main_arg6 : DevRef τ sig)) (V (main_arg7 : DevRef τ sig)) := by
  obtain ⟨a0, a1, a2, a3, a4, a5, a6, a7⟩ := RA_keeps V
  obtain ⟨bs, bd, b0, b1, b2, b3, b4, b5, b6, b7⟩ := RB_keeps (after RA V)
  obtain ⟨cs, cd, c11, c44, c0, c1, c2, c3, c4, c5, c6, c7⟩ := RC_keeps (after RB (after RA V))
  rw [after_ops, RD_v108, c44, c11, cs, cd, c6, c7, RB_v44, RB_v11, bs, bd, b6, b7, RA_v3, RA_v6, a0, a2, a3, a6, a7]
  unfold Cert.Gcn.outOf Cert.Gcn.hidden Cert.Gcn.normOf
  rfl

/-- No stage writes an argument. -/
theorem args_kept (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig) := by
  obtain ⟨a0, a1, a2, a3, a4, a5, a6, a7⟩ := RA_keeps V
  obtain ⟨bs, bd, b0, b1, b2, b3, b4, b5, b6, b7⟩ := RB_keeps (after RA V)
  obtain ⟨cs, cd, c11, c44, c0, c1, c2, c3, c4, c5, c6, c7⟩ := RC_keeps (after RB (after RA V))
  obtain ⟨d76, d0, d1, d2, d3, d4, d5, d6, d7⟩ := RD_keeps (after RC (after RB (after RA V)))
  rw [after_ops]
  exact ⟨d0.trans (c0.trans (b0.trans a0)), d1.trans (c1.trans (b1.trans a1)), d2.trans (c2.trans (b2.trans a2)),
    d3.trans (c3.trans (b3.trans a3)), d4.trans (c4.trans (b4.trans a4)), d5.trans (c5.trans (b5.trans a5)),
    d6.trans (c6.trans (b6.trans a6)), d7.trans (c7.trans (b7.trans a7))⟩

/-- Every weakly fair execution of the reference terminates without a fault, with each result at the two rounds
    of neighbourhood averaging of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76) = Cert.Gcn.outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v108) = Cert.Gcn.outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
      obtain ⟨k0, k1, k2, k3, k4, k5, k6, k7⟩ := args_kept (launchContents m c)
      exact ⟨(h c main_v76).trans (out76 (launchContents m c)), (h c main_v108).trans (out108 (launchContents m c)),
        (h c main_arg0).trans k0, (h c main_arg1).trans k1, (h c main_arg2).trans k2, (h c main_arg3).trans k3,
        (h c main_arg4).trans k4, (h c main_arg5).trans k5, (h c main_arg6).trans k6, (h c main_arg7).trans k7⟩)
    (run_main m ρ)

end Cert.ReferenceIdeal.RefValue

end
-- ==== Proof.lean ====
/-
  Both programs run two rounds of normalised neighbourhood averaging on a graph (Proof/Spec.lean). They differ in
  how the per-node feature rows of each round are made: the reference multiplies the whole 50000-row feature matrix by
  the weight matrix, the kernel program does it 5000 rows at a time on a grid of ten points (Proof/RegionValue.lean:
  the ten row blocks of the product are the product's rows). Everything around the products — the edge list with
  self loops, the degrees, the message weights, the gather of source rows, the sums into target rows, the biases, the
  rectifier — is the same chain of operations on both sides, and the kernel program computes the message weights once
  where the reference computes them three times. So each result of the kernel program (Proof/KernelValue.lean) and of the
  reference (Proof/RefValue.lean) is one function, `Cert.Gcn.outOf`, of the arguments. No finiteness is used.
-/
import proofs.«124347_j62904091018060_1_alg».proof.Defs
import proofs.«124347_j62904091018060_1_alg».proof.Proof.Gen.Kernel
import proofs.«124347_j62904091018060_1_alg».proof.Proof.Gen.Kernel.Frame
import proofs.«124347_j62904091018060_1_alg».proof.Proof.Gen.KernelIdeal
import proofs.«124347_j62904091018060_1_alg».proof.Proof.Gen.KernelIdeal.Frame
import proofs.«124347_j62904091018060_1_alg».proof.Proof.Gen.ReferenceIdeal
import proofs.«124347_j62904091018060_1_alg».proof.Proof.Gen.Pre_finite_inputs
import proofs.«124347_j62904091018060_1_alg».proof.Proof.Spec
import proofs.«124347_j62904091018060_1_alg».proof.Proof.KernelRun
import proofs.«124347_j62904091018060_1_alg».proof.Proof.KernelValue
import proofs.«124347_j62904091018060_1_alg».proof.Proof.RefValue
import Idealize.ShloMosaic.Adequacy
import Idealize.ShloMosaic.Init

noncomputable section

namespace Cert.Proof

open Idealize.ShloMosaic Idealize.SL.Sem

/-- The word-level program terminates without a fault and leaves its arguments as they were. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.RefValue.run (F := Ideal) m ρ)

/-- From memories that agree on the arguments both programs end with each result at `Cert.Gcn.outOf` of the
    arguments: the first at the weights and bias of the mean, the second at those of the log-variance. -/
theorem algebraic : Cert.algebraic_KernelIdeal_ReferenceIdeal := by
  intro m ρ m' ρ' _ hagree
  refine ⟨fun c => Cert.Gcn.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Gcn.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostValue.result0 m ρ c),
        (h c).2.1.trans (Cert.KernelIdeal.HostValue.result1 m ρ c), (h c).2.2⟩)
      (Cert.KernelIdeal.Run.run_results (F := Ideal) m ρ)
  · refine (θ_run Cert.ReferenceIdeal.defs _ _).mono (fun r h c => ?_) (Cert.ReferenceIdeal.RefValue.run (F := Ideal) m' ρ')
    obtain ⟨e0, e1, e2, e3, e4, e5, e6, e7⟩ := hagree c
    refine ⟨(h c).1.trans ?_, (h c).2.1.trans ?_, (h c).2.2⟩
    · rw [e0, e1, e2, e3, e4, e5]
    · rw [e0, e1, e2, e3, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
